-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096 : Shape := ⟨1, ![4096]⟩
abbrev S2x16777216 : Shape := ⟨2, ![2, 16777216]⟩
abbrev S16777216 : Shape := ⟨1, ![16777216]⟩
abbrev S4x4 : Shape := ⟨2, ![4, 4]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S16777216 : S_.BroadcastsInDim S16777216 (![] : Fin 0 → Fin S16777216.rank)
  reducesTo_S16777216_S_d0 : S16777216.ReducesTo [0] S_
  bcast_S_S4x4 : S_.BroadcastsInDim S4x4 (![] : Fin 0 → Fin S4x4.rank)
  reducesTo_S4x4_S_d0_1 : S4x4.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_arg0 : IVec S4096x64 32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_c_6 : IVec S_ 32 := constantI S_ 32 0#32
  let main_v19 : IVec S4096x64 32 := broadcastInDim S4096x64 ![] bcast_S_S4096x64 main_c_6
  let main_v20 : IVec S4096x64 1 := cmpi .sge main_arg0 main_v19
  let main_c_7 : IVec S_ 32 := constantI S_ 32 4#32
  let main_v21 : IVec S4096x64 32 := broadcastInDim S4096x64 ![] bcast_S_S4096x64 main_c_7
  let main_v22 : IVec S4096x64 1 := cmpi .slt main_arg0 main_v21
  let main_v23 : IVec S4096x64 1 := andi main_v20 main_v22
  let main_c_8 : IVec S_ 1 := constantI S_ 1 1#1
  let main_v24 : IVec S_ 1 := (fun x v => Host.reduce IntOp.andi x v reducesTo_S4096x64_S_d0_1 h_S_) main_v23 main_c_8
  let main_v25 : IVec S_ 1 := andi main_v18 main_v24
  main_v25

def fn {F : FTy → Type} [FloatOps F] (main_arg0 : IVec S4096x64 32) (main_arg1 : FVec F S4096 .f32) (main_arg2 : IVec S2x16777216 32) (main_arg3 : FVec F S16777216 .f32) (main_arg4 : FVec F S4x4 .f32) (main_arg5 : FVec F S4x4 .f32) : IVec S_ 1 :=
  let main_v0 : FVec F S4096 .f32 := Host.absf main_arg1
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S16777216 .f32 := Host.absf main_arg3
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S4x4 .f32 := Host.absf main_arg4
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  let main_v14 : FVec F S4x4 .f32 := Host.absf main_arg5
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg0 main_v13 main_v16
-- ==== Kernel.lean ====
abbrev S4096x64 : Shape := ⟨2, ![4096, 64]⟩
abbrev S4096 : Shape := ⟨1, ![4096]⟩
abbrev S2x16777216 : Shape := ⟨2, ![2, 16777216]⟩
abbrev S16777216 : Shape := ⟨1, ![16777216]⟩
abbrev S4x4 : Shape := ⟨2, ![4, 4]⟩
abbrev S262144 : Shape := ⟨1, ![262144]⟩
abbrev S_ : Shape := ⟨0, ![]⟩
abbrev S2x16777216x1 : Shape := ⟨3, ![2, 16777216, 1]⟩
abbrev S1x16777216 : Shape := ⟨2, ![1, 16777216]⟩
abbrev S16384x1024 : Shape := ⟨2, ![16384, 1024]⟩
abbrev S512x1024 : Shape := ⟨2, ![512, 1024]⟩
abbrev S1x1 : Shape := ⟨2, ![1, 1]⟩
abbrev S16777216x1 : Shape := ⟨2, ![16777216, 1]⟩

abbrev nBuf : Space → Nat
  | .hbm => 50
  | .vmem => 10
  | .smem => 0
  | _ => 0

abbrev bufTy : (tb : Table) → Fin (tcTables nBuf tb) → BufTy
  | .hbm, ⟨0, _⟩ => ⟨S4096x64, .i32⟩
  | .hbm, ⟨1, _⟩ => ⟨S4096, .f32⟩
  | .hbm, ⟨2, _⟩ => ⟨S2x16777216, .i32⟩
  | .hbm, ⟨3, _⟩ => ⟨S16777216, .f32⟩
  | .hbm, ⟨4, _⟩ => ⟨S4x4, .f32⟩
  | .hbm, ⟨5, _⟩ => ⟨S4x4, .f32⟩
  | .hbm, ⟨6, _⟩ => ⟨S262144, .i32⟩
  | .hbm, ⟨7, _⟩ => ⟨S_, .i32⟩
  | .hbm, ⟨8, _⟩ => ⟨S2x16777216, .i32⟩
  | .hbm, ⟨9, _⟩ => ⟨S2x16777216, .i1⟩
  | .hbm, ⟨10, _⟩ => ⟨S_, .i32⟩
  | .hbm, ⟨11, _⟩ => ⟨S2x16777216, .i32⟩
  | .hbm, ⟨12, _⟩ => ⟨S2x16777216, .i32⟩
  | .hbm, ⟨13, _⟩ => ⟨S2x16777216, .i32⟩
  | .hbm, ⟨14, _⟩ => ⟨S2x16777216x1, .i32⟩
  | .hbm, ⟨15, _⟩ => ⟨S2x16777216, .i32⟩
  | .hbm, ⟨16, _⟩ => ⟨S1x16777216, .i32⟩
  | .hbm, ⟨17, _⟩ => ⟨S16777216, .i32⟩
  | .hbm, ⟨18, _⟩ => ⟨S1x16777216, .i32⟩
  | .hbm, ⟨19, _⟩ => ⟨S16777216, .i32⟩
  | .hbm, ⟨20, _⟩ => ⟨S1x16777216, .i32⟩
  | .hbm, ⟨21, _⟩ => ⟨S16777216, .i32⟩
  | .hbm, ⟨22, _⟩ => ⟨S_, .i32⟩
  | .hbm, ⟨23, _⟩ => ⟨S_, .i32⟩
  | .hbm, ⟨24, _⟩ => ⟨S16777216, .i32⟩
  | .hbm, ⟨25, _⟩ => ⟨S16777216, .i32⟩
  | .hbm, ⟨26, _⟩ => ⟨S16777216, .i32⟩
  | .hbm, ⟨27, _⟩ => ⟨S_, .i32⟩
  | .hbm, ⟨28, _⟩ => ⟨S16777216, .i32⟩
  | .hbm, ⟨29, _⟩ => ⟨S16777216, .i1⟩
  | .hbm, ⟨30, _⟩ => ⟨S16777216, .i32⟩
  | .hbm, ⟨31, _⟩ => ⟨S16777216, .i32⟩
  | .hbm, ⟨32, _⟩ => ⟨S_, .i32⟩
  | .hbm, ⟨33, _⟩ => ⟨S16777216, .i32⟩
  | .hbm, ⟨34, _⟩ => ⟨S16777216, .i1⟩
  | .hbm, ⟨35, _⟩ => ⟨S16777216, .i1⟩
  | .hbm, ⟨36, _⟩ => ⟨S_, .i32⟩
  | .hbm, ⟨37, _⟩ => ⟨S16777216, .i32⟩
  | .hbm, ⟨38, _⟩ => ⟨S16777216, .i32⟩
  | .hbm, ⟨39, _⟩ => ⟨S16777216, .i32⟩
  | .hbm, ⟨40, _⟩ => ⟨S16384x1024, .i32⟩
  | .hbm, ⟨41, _⟩ => ⟨S16384x1024, .i32⟩
  | .hbm, ⟨42, _⟩ => ⟨S16384x1024, .f32⟩
  | .hbm, ⟨43, _⟩ => ⟨S16384x1024, .f32⟩
  | .hbm, ⟨44, _⟩ => ⟨S16777216, .f32⟩
  | .hbm, ⟨45, _⟩ => ⟨S_, .f32⟩
  | .hbm, ⟨46, _⟩ => ⟨S4096, .f32⟩
  | .hbm, ⟨47, _⟩ => ⟨S16777216x1, .i32⟩
  | .hbm, ⟨48, _⟩ => ⟨S4096, .f32⟩
  | .hbm, ⟨49, _⟩ => ⟨S4096, .f32⟩
  | .local _ .vmem, ⟨0, _⟩ => ⟨S512x1024, .i32⟩
  | .local _ .vmem, ⟨1, _⟩ => ⟨S512x1024, .i32⟩
  | .local _ .vmem, ⟨2, _⟩ => ⟨S512x1024, .i32⟩
  | .local _ .vmem, ⟨3, _⟩ => ⟨S512x1024, .i32⟩
  | .local _ .vmem, ⟨4, _⟩ => ⟨S512x1024, .f32⟩
  | .local _ .vmem, ⟨5, _⟩ => ⟨S512x1024, .f32⟩
  | .local _ .vmem, ⟨6, _⟩ => ⟨S4x4, .f32⟩
  | .local _ .vmem, ⟨7, _⟩ => ⟨S4x4, .f32⟩
  | .local _ .vmem, ⟨8, _⟩ => ⟨S512x1024, .f32⟩
  | .local _ .vmem, ⟨9, _⟩ => ⟨S512x1024, .f32⟩
  | _, _ => ⟨S4096x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096x64_S262144 : S4096x64.ShapeCasts S262144
  bcast_S_S2x16777216 : S_.BroadcastsInDim S2x16777216 (![] : Fin 0 → Fin S2x16777216.rank)
  bcast_S2x16777216_S2x16777216x1_0_1 : S2x16777216.BroadcastsInDim S2x16777216x1 (![0, 1] : Fin 2 → Fin S2x16777216x1.rank)
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  bcast_S_S16777216 : S_.BroadcastsInDim S16777216 (![] : Fin 0 → Fin S16777216.rank)
  shapeCasts_S16777216_S16384x1024 : S16777216.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4x4_S1x1_0_0 : ∀ a, (![0, 0] : Fin 2 → Nat) a + S1x1.size a ≤ S4x4.size a
  h_S1x1 : 0 < S1x1.numel
  inpos_S1x1_p0_0 : ∀ a, (![0, 0] : Fin 2 → Nat) a < S1x1.size a
  inb_S4x4_S1x1_0_1 : ∀ a, (![0, 1] : Fin 2 → Nat) a + S1x1.size a ≤ S4x4.size a
  inb_S4x4_S1x1_0_2 : ∀ a, (![0, 2] : Fin 2 → Nat) a + S1x1.size a ≤ S4x4.size a
  inb_S4x4_S1x1_0_3 : ∀ a, (![0, 3] : Fin 2 → Nat) a + S1x1.size a ≤ S4x4.size a
  inb_S4x4_S1x1_1_0 : ∀ a, (![1, 0] : Fin 2 → Nat) a + S1x1.size a ≤ S4x4.size a
  inb_S4x4_S1x1_1_1 : ∀ a, (![1, 1] : Fin 2 → Nat) a + S1x1.size a ≤ S4x4.size a
  inb_S4x4_S1x1_1_2 : ∀ a, (![1, 2] : Fin 2 → Nat) a + S1x1.size a ≤ S4x4.size a
  inb_S4x4_S1x1_1_3 : ∀ a, (![1, 3] : Fin 2 → Nat) a + S1x1.size a ≤ S4x4.size a
  inb_S4x4_S1x1_2_0 : ∀ a, (![2, 0] : Fin 2 → Nat) a + S1x1.size a ≤ S4x4.size a
  inb_S4x4_S1x1_2_1 : ∀ a, (![2, 1] : Fin 2 → Nat) a + S1x1.size a ≤ S4x4.size a
  inb_S4x4_S1x1_2_2 : ∀ a, (![2, 2] : Fin 2 → Nat) a + S1x1.size a ≤ S4x4.size a
  inb_S4x4_S1x1_2_3 : ∀ a, (![2, 3] : Fin 2 → Nat) a + S1x1.size a ≤ S4x4.size a
  inb_S4x4_S1x1_3_0 : ∀ a, (![3, 0] : Fin 2 → Nat) a + S1x1.size a ≤ S4x4.size a
  inb_S4x4_S1x1_3_1 : ∀ a, (![3, 1] : Fin 2 → Nat) a + S1x1.size a ≤ S4x4.size a
  inb_S4x4_S1x1_3_2 : ∀ a, (![3, 2] : Fin 2 → Nat) a + S1x1.size a ≤ S4x4.size a
  inb_S4x4_S1x1_3_3 : ∀ a, (![3, 3] : Fin 2 → Nat) a + S1x1.size a ≤ S4x4.size a
  shapeCasts_S16384x1024_S16777216 : S16384x1024.ShapeCasts S16777216
  bcast_S_S4096 : S_.BroadcastsInDim S4096 (![] : Fin 0 → Fin S4096.rank)
  bcast_S16777216_S16777216x1_0 : S16777216.BroadcastsInDim S16777216x1 (![0] : Fin 1 → Fin S16777216x1.rank)
  gather_S262144_S2x16777216x1_S2x16777216_n_0_n_n_0_2_1_wf : GatherDims.WF S262144 S2x16777216x1 S2x16777216 [] [0] [] [0] [] 2 ![1]
  scatter_S4096_S16777216x1_S16777216_n_0_0_1_wf : ScatterDims.WF S4096 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .i32 = 32 ∨ (Rect.block (s := S16384x1024) S512x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .i32 = 32 ∨ (Rect.block (s := S16384x1024) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x4.size a ≤ S4x4.size a
  hwx0_3 : ∀ i : grid0.Coords, EltTy.bits .f32 = 32 ∨ (Rect.block (s := S4x4) S4x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x4.size a ≤ S4x4.size a
  hwx0_4 : ∀ i : grid0.Coords, EltTy.bits .f32 = 32 ∨ (Rect.block (s := S4x4) S4x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def gather_S262144_S2x16777216x1_S2x16777216_n_0_n_n_0_2_1 : GatherDims S262144 S2x16777216x1 S2x16777216 where
  offsetDims := []
  collapsedSliceDims := [0]
  operandBatchingDims := []
  startIndicesBatchingDims := []
  startIndexMap := [0]
  indexVectorDim := 2
  sliceSizes := ![1]
  wf := gather_S262144_S2x16777216x1_S2x16777216_n_0_n_n_0_2_1_wf
def scatter_S4096_S16777216x1_S16777216_n_0_0_1 : ScatterDims S4096 S16777216x1 S16777216 where
  updateWindowDims := []
  insertedWindowDims := [0]
  scatterDimsToOperandDims := [0]
  indexVectorDim := 1
  wf := scatter_S4096_S16777216x1_S16777216_n_0_0_1_wf

abbrev win0_0 : Pipeline.Window sig grid0 :=
  Pipeline.Window.ofSpec (Memref.whole main_v15) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096 : Shape := ⟨1, ![4096]⟩
abbrev S2x16777216 : Shape := ⟨2, ![2, 16777216]⟩
abbrev S16777216 : Shape := ⟨1, ![16777216]⟩
abbrev S4x4 : Shape := ⟨2, ![4, 4]⟩
abbrev S_ : Shape := ⟨0, ![]⟩
abbrev S262144 : Shape := ⟨1, ![262144]⟩
abbrev S2x16777216x1 : Shape := ⟨3, ![2, 16777216, 1]⟩
abbrev S1x16777216 : Shape := ⟨2, ![1, 16777216]⟩
abbrev S16777216x1 : Shape := ⟨2, ![16777216, 1]⟩
abbrev S16777216x2 : Shape := ⟨2, ![16777216, 2]⟩

abbrev nBuf : Space → Nat
  | .hbm => 120
  | .vmem => 0
  | .smem => 0
  | _ => 0

abbrev bufTy : (tb : Table) → Fin (tcTables nBuf tb) → BufTy
  | .hbm, ⟨0, _⟩ => ⟨S4096x64, .i32⟩
  | .hbm, ⟨1, _⟩ => ⟨S4096, .f32⟩
  | .hbm, ⟨2, _⟩ => ⟨S2x16777216, .i32⟩
  | .hbm, ⟨3, _⟩ => ⟨S16777216, .f32⟩
  | .hbm, ⟨4, _⟩ => ⟨S4x4, .f32⟩
  | .hbm, ⟨5, _⟩ => ⟨S4x4, .f32⟩
  | .hbm, ⟨6, _⟩ => ⟨S_, .f32⟩
  | .hbm, ⟨7, _⟩ => ⟨S16777216, .f32⟩
  | .hbm, ⟨8, _⟩ => ⟨S16777216, .f32⟩
  | .hbm, ⟨9, _⟩ => ⟨S262144, .i32⟩
  | .hbm, ⟨10, _⟩ => ⟨S_, .i32⟩
  | .hbm, ⟨11, _⟩ => ⟨S2x16777216, .i32⟩
  | .hbm, ⟨12, _⟩ => ⟨S2x16777216, .i1⟩
  | .hbm, ⟨13, _⟩ => ⟨S_, .i32⟩
  | .hbm, ⟨14, _⟩ => ⟨S2x16777216, .i32⟩
  | .hbm, ⟨15, _⟩ => ⟨S2x16777216, .i32⟩
  | .hbm, ⟨16, _⟩ => ⟨S2x16777216, .i32⟩
  | .hbm, ⟨17, _⟩ => ⟨S2x16777216x1, .i32⟩
  | .hbm, ⟨18, _⟩ => ⟨S2x16777216, .i32⟩
  | .hbm, ⟨19, _⟩ => ⟨S1x16777216, .i32⟩
  | .hbm, ⟨20, _⟩ => ⟨S16777216, .i32⟩
  | .hbm, ⟨21, _⟩ => ⟨S1x16777216, .i32⟩
  | .hbm, ⟨22, _⟩ => ⟨S16777216, .i32⟩
  | .hbm, ⟨23, _⟩ => ⟨S_, .i32⟩
  | .hbm, ⟨24, _⟩ => ⟨S16777216, .i32⟩
  | .hbm, ⟨25, _⟩ => ⟨S16777216, .i1⟩
  | .hbm, ⟨26, _⟩ => ⟨S_, .i32⟩
  | .hbm, ⟨27, _⟩ => ⟨S16777216, .i32⟩
  | .hbm, ⟨28, _⟩ => ⟨S16777216, .i32⟩
  | .hbm, ⟨29, _⟩ => ⟨S16777216, .i32⟩
  | .hbm, ⟨30, _⟩ => ⟨S_, .i32⟩
  | .hbm, ⟨31, _⟩ => ⟨S16777216, .i32⟩
  | .hbm, ⟨32, _⟩ => ⟨S16777216, .i1⟩
  | .hbm, ⟨33, _⟩ => ⟨S_, .i32⟩
  | .hbm, ⟨34, _⟩ => ⟨S16777216, .i32⟩
  | .hbm, ⟨35, _⟩ => ⟨S16777216, .i32⟩
  | .hbm, ⟨36, _⟩ => ⟨S16777216, .i32⟩
  | .hbm, ⟨37, _⟩ => ⟨S16777216x1, .i32⟩
  | .hbm, ⟨38, _⟩ => ⟨S16777216x1, .i32⟩
  | .hbm, ⟨39, _⟩ => ⟨S16777216x2, .i32⟩
  | .hbm, ⟨40, _⟩ => ⟨S16777216, .f32⟩
  | .hbm, ⟨41, _⟩ => ⟨S1x16777216, .i32⟩
  | .hbm, ⟨42, _⟩ => ⟨S16777216, .i32⟩
  | .hbm, ⟨43, _⟩ => ⟨S1x16777216, .i32⟩
  | .hbm, ⟨44, _⟩ => ⟨S16777216, .i32⟩
  | .hbm, ⟨45, _⟩ => ⟨S_, .i32⟩
  | .hbm, ⟨46, _⟩ => ⟨S16777216, .i32⟩
  | .hbm, ⟨47, _⟩ => ⟨S16777216, .i1⟩
  | .hbm, ⟨48, _⟩ => ⟨S_, .i32⟩
  | .hbm, ⟨49, _⟩ => ⟨S16777216, .i32⟩
  | .hbm, ⟨50, _⟩ => ⟨S16777216, .i32⟩
  | .hbm, ⟨51, _⟩ => ⟨S16777216, .i32⟩
  | .hbm, ⟨52, _⟩ => ⟨S_, .i32⟩
  | .hbm, ⟨53, _⟩ => ⟨S16777216, .i32⟩
  | .hbm, ⟨54, _⟩ => ⟨S16777216, .i1⟩
  | .hbm, ⟨55, _⟩ => ⟨S_, .i32⟩
  | .hbm, ⟨56, _⟩ => ⟨S16777216, .i32⟩
  | .hbm, ⟨57, _⟩ => ⟨S16777216, .i32⟩
  | .hbm, ⟨58, _⟩ => ⟨S16777216, .i32⟩
  | .hbm, ⟨59, _⟩ => ⟨S16777216x1, .i32⟩
  | .hbm, ⟨60, _⟩ => ⟨S16777216x1, .i32⟩
  | .hbm, ⟨61, _⟩ => ⟨S16777216x2, .i32⟩
  | .hbm, ⟨62, _⟩ => ⟨S16777216, .f32⟩
  | .hbm, ⟨63, _⟩ => ⟨S16777216, .f32⟩
  | .hbm, ⟨64, _⟩ => ⟨S16777216, .f32⟩
  | .hbm, ⟨65, _⟩ => ⟨S16777216, .f32⟩
  | .hbm, ⟨66, _⟩ => ⟨S_, .f32⟩
  | .hbm, ⟨67, _⟩ => ⟨S16777216, .f32⟩
  | .hbm, ⟨68, _⟩ => ⟨S16777216, .f32⟩
  | .hbm, ⟨69, _⟩ => ⟨S16777216, .f32⟩
  | .hbm, ⟨70, _⟩ => ⟨S_, .f32⟩
  | .hbm, ⟨71, _⟩ => ⟨S16777216, .f32⟩
  | .hbm, ⟨72, _⟩ => ⟨S16777216, .i1⟩
  | .hbm, ⟨73, _⟩ => ⟨S_, .f32⟩
  | .hbm, ⟨74, _⟩ => ⟨S_, .f32⟩
  | .hbm, ⟨75, _⟩ => ⟨S16777216, .f32⟩
  | .hbm, ⟨76, _⟩ => ⟨S16777216, .f32⟩
  | .hbm, ⟨77, _⟩ => ⟨S_, .f32⟩
  | .hbm, ⟨78, _⟩ => ⟨S16777216, .f32⟩
  | .hbm, ⟨79, _⟩ => ⟨S16777216, .i1⟩
  | .hbm, ⟨80, _⟩ => ⟨S_, .f32⟩
  | .hbm, ⟨81, _⟩ => ⟨S16777216, .f32⟩
  | .hbm, ⟨82, _⟩ => ⟨S16777216, .f32⟩
  | .hbm, ⟨83, _⟩ => ⟨S_, .f32⟩
  | .hbm, ⟨84, _⟩ => ⟨S16777216, .f32⟩
  | .hbm, ⟨85, _⟩ => ⟨S16777216, .f32⟩
  | .hbm, ⟨86, _⟩ => ⟨S_, .f32⟩
  | .hbm, ⟨87, _⟩ => ⟨S16777216, .f32⟩
  | .hbm, ⟨88, _⟩ => ⟨S16777216, .f32⟩
  | .hbm, ⟨89, _⟩ => ⟨S16777216, .f32⟩
  | .hbm, ⟨90, _⟩ => ⟨S_, .f32⟩
  | .hbm, ⟨91, _⟩ => ⟨S_, .f32⟩
  | .hbm, ⟨92, _⟩ => ⟨S16777216, .f32⟩
  | .hbm, ⟨93, _⟩ => ⟨S16777216, .f32⟩
  | .hbm, ⟨94, _⟩ => ⟨S16777216, .f32⟩
  | .hbm, ⟨95, _⟩ => ⟨S1x16777216, .i32⟩
  | .hbm, ⟨96, _⟩ => ⟨S16777216, .i32⟩
  | .hbm, ⟨97, _⟩ => ⟨S_, .i32⟩
  | .hbm, ⟨98, _⟩ => ⟨S_, .i32⟩
  | .hbm, ⟨99, _⟩ => ⟨S16777216, .i32⟩
  | .hbm, ⟨100, _⟩ => ⟨S16777216, .i32⟩
  | .hbm, ⟨101, _⟩ => ⟨S16777216, .i32⟩
  | .hbm, ⟨102, _⟩ => ⟨S_, .i32⟩
  | .hbm, ⟨103, _⟩ => ⟨S16777216, .i32⟩
  | .hbm, ⟨104, _⟩ => ⟨S16777216, .i1⟩
  | .hbm, ⟨105, _⟩ => ⟨S16777216, .i32⟩
  | .hbm, ⟨106, _⟩ => ⟨S16777216, .i32⟩
  | .hbm, ⟨107, _⟩ => ⟨S_, .i32⟩
  | .hbm, ⟨108, _⟩ => ⟨S16777216, .i32⟩
  | .hbm, ⟨109, _⟩ => ⟨S16777216, .i1⟩
  | .hbm, ⟨110, _⟩ => ⟨S16777216, .i1⟩
  | .hbm, ⟨111, _⟩ => ⟨S_, .i32⟩
  | .hbm, ⟨112, _⟩ => ⟨S16777216, .i32⟩
  | .hbm, ⟨113, _⟩ => ⟨S16777216, .i32⟩
  | .hbm, ⟨114, _⟩ => ⟨S16777216, .i32⟩
  | .hbm, ⟨115, _⟩ => ⟨S_, .f32⟩
  | .hbm, ⟨116, _⟩ => ⟨S4096, .f32⟩
  | .hbm, ⟨117, _⟩ => ⟨S16777216x1, .i32⟩
  | .hbm, ⟨118, _⟩ => ⟨S4096, .f32⟩
  | .hbm, ⟨119, _⟩ => ⟨S4096, .f32⟩
  | _, _ => ⟨S4096x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_call0_v0 : Ref sig .tc := ⟨.hbm, 74, rfl⟩
abbrev main_call0_v1 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_cst_15 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_16 : Ref sig .tc := ⟨.hbm, 90, rfl⟩
abbrev main_call1_v0 : Ref sig .tc := ⟨.hbm, 91, rfl⟩
abbrev main_call1_v1 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_17 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_c : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_0 : Ref sig .tc := ⟨.hbm, 111, rfl⟩
abbrev main_call2_v12 : Ref sig .tc := ⟨.hbm, 112, rfl⟩
abbrev main_call2_v13 : Ref sig .tc := ⟨.hbm, 113, rfl⟩
abbrev main_v68 : Ref sig .tc := ⟨.hbm, 114, rfl⟩
abbrev main_cst_18 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  shapeCasts_S4096x64_S262144 : S4096x64.ShapeCasts S262144
  bcast_S_S2x16777216 : S_.BroadcastsInDim S2x16777216 (![] : Fin 0 → Fin S2x16777216.rank)
  bcast_S2x16777216_S2x16777216x1_0_1 : S2x16777216.BroadcastsInDim S2x16777216x1 (![0, 1] : Fin 2 → Fin S2x16777216x1.rank)
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  bcast_S_S4096 : S_.BroadcastsInDim S4096 (![] : Fin 0 → Fin S4096.rank)
  gather_S262144_S2x16777216x1_S2x16777216_n_0_n_n_0_2_1_wf : GatherDims.WF S262144 S2x16777216x1 S2x16777216 [] [0] [] [0] [] 2 ![1]
  gather_S4x4_S16777216x2_S16777216_n_01_n_n_01_1_11_wf : GatherDims.WF S4x4 S16777216x2 S16777216 [] [0, 1] [] [0, 1] [] 1 ![1, 1]
  scatter_S4096_S16777216x1_S16777216_n_0_0_1_wf : ScatterDims.WF S4096 S16777216x1 S16777216 [] [0] [0] 1

variable [Facts₀]

def gather_S262144_S2x16777216x1_S2x16777216_n_0_n_n_0_2_1 : GatherDims S262144 S2x16777216x1 S2x16777216 where
  offsetDims := []
  collapsedSliceDims := [0]
  operandBatchingDims := []
  startIndicesBatchingDims := []
  startIndexMap := [0]
  indexVectorDim := 2
  sliceSizes := ![1]
  wf := gather_S262144_S2x16777216x1_S2x16777216_n_0_n_n_0_2_1_wf
def gather_S4x4_S16777216x2_S16777216_n_01_n_n_01_1_11 : GatherDims S4x4 S16777216x2 S16777216 where
  offsetDims := []
  collapsedSliceDims := [0, 1]
  operandBatchingDims := []
  startIndicesBatchingDims := []
  startIndexMap := [0, 1]
  indexVectorDim := 1
  sliceSizes := ![1, 1]
  wf := gather_S4x4_S16777216x2_S16777216_n_01_n_n_01_1_11_wf
def scatter_S4096_S16777216x1_S16777216_n_0_0_1 : ScatterDims S4096 S16777216x1 S16777216 where
  updateWindowDims := []
  insertedWindowDims := [0]
  scatterDimsToOperandDims := [0]
  indexVectorDim := 1
  wf := scatter_S4096_S16777216x1_S16777216_n_0_0_1_wf

class Facts : Prop extends Facts₀ where

variable [Facts]
-- ==== Proof.RefRun.lean ====
/-
  The reference's @main as one straight line of host operations, and its run.

  @main is printed in two windows and calls three outlined functions (a select against a broadcast scalar,
  twice; the floor of a quotient, which itself ends in a select).  Executing a call is executing the callee's
  lines on the call's own buffers, so the whole program is the list below: @main's lines in order, each callee's
  lines at its call site over that call's record.  Every weakly fair execution then terminates with each buffer
  at the fold of the operations over the launch contents.
-/
import proofs.«412183_j14680198218405_1_alg».proof.ReferenceIdeal
import proofs.«412183_j14680198218405_1_alg».proof.Proof.Gen.ReferenceIdeal
import Idealize.ShloMosaic.Lib.StableHlo.Run

noncomputable section

namespace Cert.ReferenceIdeal.RefRun

open Idealize.ShloMosaic Idealize.ShloMosaic.TcCoe Idealize.SL.Sem
open Idealize.ShloMosaic.StableHlo
open Cert.ReferenceIdeal Cert.ReferenceIdeal.Facts₀

variable {F : FTy → Type} [FloatOps F]

/-- The program's host operations, in execution order. -/
abbrev ops : List (HloOp τ sig (Elt F)) :=
  [ -- the distances in bohr
    nullary main_cst (constant S_ .f32 0x3FF1E28C#32),
    unary main_cst main_v0 (broadcastInDim S16777216 ![] bcast_S_S16777216),
    binary main_arg3 main_v0 main_v1 mulf,
    -- the species of both atoms of every pair
    reshape main_arg0 main_v2 rfl shapeCasts_S4096x64_S262144,
    nullary main_c (constantI S_ 32 0#32),
    unary main_c main_v3 (broadcastInDim S2x16777216 ![] bcast_S_S2x16777216),
    binary main_arg2 main_v3 main_v4 (cmpi .slt),
    nullary main_c_0 (constantI S_ 32 262144#32),
    unary main_c_0 main_v5 (broadcastInDim S2x16777216 ![] bcast_S_S2x16777216),
    binary main_arg2 main_v5 main_v6 addi,
    ternary main_v4 main_v6 main_arg2 main_v7 select,
    unary main_v7 main_v8 (broadcastInDim S2x16777216x1 ![0, 1] bcast_S2x16777216_S2x16777216x1_0_1),
    binary main_v2 main_v8 main_v9 (fun x i => Host.gather gather_S262144_S2x16777216x1_S2x16777216_n_0_n_n_0_2_1 x i),
    -- the prefactor: both species wrapped, paired, gathered out of the first table
    unary main_v9 main_v10 (extractStridedSlice S1x16777216 ![0, 0] · slices_S2x16777216_S1x16777216_0_0),
    reshape main_v10 main_v11 rfl shapeCasts_S1x16777216_S16777216,
    unary main_v9 main_v12 (extractStridedSlice S1x16777216 ![1, 0] · slices_S2x16777216_S1x16777216_1_0),
    reshape main_v12 main_v13 rfl shapeCasts_S1x16777216_S16777216,
    nullary main_c_1 (constantI S_ 32 0#32),
    unary main_c_1 main_v14 (broadcastInDim S16777216 ![] bcast_S_S16777216),
    binary main_v11 main_v14 main_v15 (cmpi .slt),
    nullary main_c_2 (constantI S_ 32 4#32),
    unary main_c_2 main_v16 (broadcastInDim S16777216 ![] bcast_S_S16777216),
    binary main_v11 main_v16 main_v17 addi,
    ternary main_v15 main_v17 main_v11 main_v18 select,
    nullary main_c_3 (constantI S_ 32 0#32),
    unary main_c_3 main_v19 (broadcastInDim S16777216 ![] bcast_S_S16777216),
    binary main_v13 main_v19 main_v20 (cmpi .slt),
    nullary main_c_4 (constantI S_ 32 4#32),
    unary main_c_4 main_v21 (broadcastInDim S16777216 ![] bcast_S_S16777216),
    binary main_v13 main_v21 main_v22 addi,
    ternary main_v20 main_v22 main_v13 main_v23 select,
    unary main_v18 main_v24 (broadcastInDim S16777216x1 ![0] bcast_S16777216_S16777216x1_0),
    unary main_v23 main_v25 (broadcastInDim S16777216x1 ![0] bcast_S16777216_S16777216x1_0),
    binary main_v24 main_v25 main_v26 (fun a b => concatenate S16777216x2 1 [⟨S16777216x1, a⟩, ⟨S16777216x1, b⟩] concatenates_S16777216x1_S16777216x1_S16777216x2_d1),
    binary main_arg4 main_v26 main_v27 (fun x i => Host.gather gather_S4x4_S16777216x2_S16777216_n_01_n_n_01_1_11 x i),
    -- the decay factor: the same out of the second table
    unary main_v9 main_v28 (extractStridedSlice S1x16777216 ![0, 0] · slices_S2x16777216_S1x16777216_0_0),
    reshape main_v28 main_v29 rfl shapeCasts_S1x16777216_S16777216,
    unary main_v9 main_v30 (extractStridedSlice S1x16777216 ![1, 0] · slices_S2x16777216_S1x16777216_1_0),
    reshape main_v30 main_v31 rfl shapeCasts_S1x16777216_S16777216,
    nullary main_c_5 (constantI S_ 32 0#32),
    unary main_c_5 main_v32 (broadcastInDim S16777216 ![] bcast_S_S16777216),
    binary main_v29 main_v32 main_v33 (cmpi .slt),
    nullary main_c_6 (constantI S_ 32 4#32),
    unary main_c_6 main_v34 (broadcastInDim S16777216 ![] bcast_S_S16777216),
    binary main_v29 main_v34 main_v35 addi,
    ternary main_v33 main_v35 main_v29 main_v36 select,
    nullary main_c_7 (constantI S_ 32 0#32),
    unary main_c_7 main_v37 (broadcastInDim S16777216 ![] bcast_S_S16777216),
    binary main_v31 main_v37 main_v38 (cmpi .slt),
    nullary main_c_8 (constantI S_ 32 4#32),
    unary main_c_8 main_v39 (broadcastInDim S16777216 ![] bcast_S_S16777216),
    binary main_v31 main_v39 main_v40 addi,
    ternary main_v38 main_v40 main_v31 main_v41 select,
    unary main_v36 main_v42 (broadcastInDim S16777216x1 ![0] bcast_S16777216_S16777216x1_0),
    unary main_v41 main_v43 (broadcastInDim S16777216x1 ![0] bcast_S16777216_S16777216x1_0),
    binary main_v42 main_v43 main_v44 (fun a b => concatenate S16777216x2 1 [⟨S16777216x1, a⟩, ⟨S16777216x1, b⟩] concatenates_S16777216x1_S16777216x1_S16777216x2_d1),
    binary main_arg5 main_v44 main_v45 (fun x i => Host.gather gather_S4x4_S16777216x2_S16777216_n_01_n_n_01_1_11 x i),
    -- prefactor times the exponential decay
    binary main_v45 main_v1 main_v46 mulf,
    unary main_v46 main_v47 Host.exp,
    binary main_v27 main_v47 main_v48 mulf,
    -- the smooth cutoff: (d / rc)², kept where it is below one
    nullary main_cst_9 (constant S_ .f32 0x411D39A8#32),
    unary main_cst_9 main_v49 (broadcastInDim S16777216 ![] bcast_S_S16777216),
    binary main_v1 main_v49 main_v50 Host.divf,
    binary main_v50 main_v50 main_v51 mulf,
    nullary main_cst_10 (constant S_ .f32 0x3F800000#32),
    unary main_cst_10 main_v52 (broadcastInDim S16777216 ![] bcast_S_S16777216),
    binary main_v51 main_v52 main_v53 (cmpf .olt),
    nullary main_cst_11 (constant S_ .f32 0x00000000#32),
    TRef.unary (.of main_cst_11) main_call0.v0 id,
    TRef.unary main_call0.v0 main_call0.v1 (broadcastInDim S16777216 ![] bcast_S_S16777216),
    TRef.ternary (.of main_v53) (.of main_v51) main_call0.v1 main_call0.v2 select,
    -- exp (1 - 1 / (1 - that)) where d is below rc, else zero
    nullary main_cst_12 (constant S_ .f32 0x411D39A8#32),
    unary main_cst_12 main_v55 (broadcastInDim S16777216 ![] bcast_S_S16777216),
    binary main_v1 main_v55 main_v56 (cmpf .olt),
    nullary main_cst_13 (constant S_ .f32 0x3F800000#32),
    unary main_cst_13 main_v57 (broadcastInDim S16777216 ![] bcast_S_S16777216),
    binary main_v57 main_v54 main_v58 subf,
    nullary main_cst_14 (constant S_ .f32 0x3F800000#32),
    unary main_cst_14 main_v59 (broadcastInDim S16777216 ![] bcast_S_S16777216),
    binary main_v59 main_v58 main_v60 Host.divf,
    nullary main_cst_15 (constant S_ .f32 0x3F800000#32),
    unary main_cst_15 main_v61 (broadcastInDim S16777216 ![] bcast_S_S16777216),
    binary main_v61 main_v60 main_v62 subf,
    unary main_v62 main_v63 Host.exp,
    nullary main_cst_16 (constant S_ .f32 0x00000000#32),
    TRef.unary (.of main_cst_16) main_call1.v0 id,
    TRef.unary main_call1.v0 main_call1.v1 (broadcastInDim S16777216 ![] bcast_S_S16777216),
    TRef.ternary (.of main_v56) (.of main_v63) main_call1.v1 main_call1.v2 select,
    binary main_v48 main_v64 main_v65 mulf,
    -- the molecule of every pair: its first atom's index over 64, rounded down
    unary main_arg2 main_v66 (extractStridedSlice S1x16777216 ![0, 0] · slices_S2x16777216_S1x16777216_0_0),
    reshape main_v66 main_v67 rfl shapeCasts_S1x16777216_S16777216,
    nullary main_c_17 (constantI S_ 32 64#32),
    TRef.unary (.of main_c_17) main_call2.v0 id,
    TRef.unary main_call2.v0 main_call2.v1 (broadcastInDim S16777216 ![] bcast_S_S16777216),
    TRef.binary (.of main_v67) main_call2.v1 main_call2.v2 Host.divsi,
    TRef.unary (.of main_v67) main_call2.v3 signi,
    TRef.unary main_call2.v0 main_call2.v4 signi,
    TRef.unary main_call2.v4 main_call2.v5 (broadcastInDim S16777216 ![] bcast_S_S16777216),
    TRef.binary main_call2.v3 main_call2.v5 main_call2.v6 (cmpi .ne),
    TRef.unary main_call2.v0 main_call2.v7 (broadcastInDim S16777216 ![] bcast_S_S16777216),
    TRef.binary (.of main_v67) main_call2.v7 main_call2.v8 Host.remsi,
    TRef.nullary main_call2.c (constantI S_ 32 0#32),
    TRef.unary main_call2.c main_call2.v9 (broadcastInDim S16777216 ![] bcast_S_S16777216),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S16777216 ![] bcast_S_S16777216),
    TRef.binary main_call2.v2 main_call2.v12 main_call2.v13 subi,
    TRef.ternary main_call2.v11 main_call2.v13 main_call2.v2 main_call2.call0.v0 select,
    -- every pair's value added into its molecule's slot, on top of the energies
    nullary main_cst_18 (constant S_ .f32 0x00000000#32),
    unary main_cst_18 main_v69 (broadcastInDim S4096 ![] bcast_S_S4096),
    unary main_v68 main_v70 (broadcastInDim S16777216x1 ![0] bcast_S16777216_S16777216x1_0),
    ternary main_v69 main_v70 main_v65 main_v71 (fun x i u => Host.scatterAdd scatter_S4096_S16777216x1_S16777216_n_0_0_1 x i u),
    binary main_arg1 main_v71 main_v72 addf ]

set_option maxRecDepth 4096 in
set_option maxHeartbeats 8000000 in
/-- @main is that straight line: its two windows and the three functions unfolded at their calls, the
    sequencing reassociated. -/
theorem main_eq (c : Dev nD) : main (F := F) c = seq ops := by
  simp only [main, main_part0, main_part1, fn_where.body, fn_where_0.body, fn_floor_divide.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  simp only [List.Forall, nullary_bufs_sub, unary_bufs_sub, binary_bufs_sub, ternary_bufs_sub, reshape_bufs_sub, and_self]

/-- From any memory with zero counters every weakly fair execution of @main terminates, and every final state
    has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.Spec.lean ====
/-
  The mathematics both programs share, stated once over literal shapes, with no program imported.

  Per pair p the two programs compute  srb p = (pre · exp (dfac · d)) · cutoff d  with d = x p · c,
  where pre and dfac are entries of two 4 × 4 tables chosen by the species (s0, s1) of the pair's two
  atoms, and then add srb p into the energy of molecule (first atom of p) / 64.  The species of a
  pair's atoms, the molecule index and the final sum are the SAME host operations in both programs:
  they are named here once (species12, rowOf0 / rowOf1, molIdx, energySum) and never opened.
  The only difference is the table lookup: the kernel walks the sixteen (i, j) in order and keeps the
  entry of the last matching pair, starting from zero (lookupSel); the reference wraps a negative
  index by the table length and gathers with each coordinate clamped into [0, 3] (lookupGather).
  On species in {0, 1, 2, 3} the two agree (lookup_eq): exactly one (i, j) matches, and neither the
  wrap nor the clamp moves an index already in range.
-/
import Idealize.ShloMosaic.PureOps
import Idealize.ShloMosaic.PureOps.Ideal
import Idealize.ShloMosaic.Lib.ValueIdx

noncomputable section

namespace Cert.Srb

open Idealize.ShloMosaic

abbrev S4096x64 : Shape := ⟨2, ![4096, 64]⟩
abbrev S4096 : Shape := ⟨1, ![4096]⟩
abbrev S2x16777216 : Shape := ⟨2, ![2, 16777216]⟩
abbrev S16777216 : Shape := ⟨1, ![16777216]⟩
abbrev S4x4 : Shape := ⟨2, ![4, 4]⟩
abbrev S_ : Shape := ⟨0, ![]⟩
abbrev S262144 : Shape := ⟨1, ![262144]⟩
abbrev S2x16777216x1 : Shape := ⟨3, ![2, 16777216, 1]⟩
abbrev S1x16777216 : Shape := ⟨2, ![1, 16777216]⟩
abbrev S16777216x1 : Shape := ⟨2, ![16777216, 1]⟩
abbrev S16777216x2 : Shape := ⟨2, ![16777216, 2]⟩
abbrev S16384x1024 : Shape := ⟨2, ![16384, 1024]⟩

/-! ## The shape relations the shared operations take -/

theorem cast_atoms : S4096x64.ShapeCasts S262144 := by decide
theorem bcast_scalar_pairs2 : S_.BroadcastsInDim S2x16777216 (![] : Fin 0 → Fin S2x16777216.rank) := by decide
theorem bcast_pairs2_col : S2x16777216.BroadcastsInDim S2x16777216x1 (![0, 1] : Fin 2 → Fin S2x16777216x1.rank) := by decide
theorem slice_row0 : S2x16777216.Slices ![0, 0] S1x16777216 := by decide
theorem slice_row1 : S2x16777216.Slices ![1, 0] S1x16777216 := by decide
theorem cast_row : S1x16777216.ShapeCasts S16777216 := by decide
theorem bcast_scalar_pairs : S_.BroadcastsInDim S16777216 (![] : Fin 0 → Fin S16777216.rank) := by decide
theorem bcast_pairs_col : S16777216.BroadcastsInDim S16777216x1 (![0] : Fin 1 → Fin S16777216x1.rank) := by decide
theorem bcast_scalar_mols : S_.BroadcastsInDim S4096 (![] : Fin 0 → Fin S4096.rank) := by decide
theorem cat_cols : Shape.Concatenates [S16777216x1, S16777216x1] S16777216x2 1 := by decide
theorem cast_tile : S16777216.ShapeCasts S16384x1024 := by decide
theorem cast_untile : S16384x1024.ShapeCasts S16777216 := by decide

/-- The gather of one species per (atom slot, pair) out of the flat species table. -/
def gatherAtoms : GatherDims S262144 S2x16777216x1 S2x16777216 where
  offsetDims := []
  collapsedSliceDims := [0]
  operandBatchingDims := []
  startIndicesBatchingDims := []
  startIndexMap := [0]
  indexVectorDim := 2
  sliceSizes := ![1]
  wf := by decide

/-- The gather of one table entry per pair at a two-coordinate index. -/
def gatherTable : GatherDims S4x4 S16777216x2 S16777216 where
  offsetDims := []
  collapsedSliceDims := [0, 1]
  operandBatchingDims := []
  startIndicesBatchingDims := []
  startIndexMap := [0, 1]
  indexVectorDim := 1
  sliceSizes := ![1, 1]
  wf := by decide

/-- The scatter of one value per pair into its molecule's slot. -/
def scatterMols : ScatterDims S4096 S16777216x1 S16777216 where
  updateWindowDims := []
  insertedWindowDims := [0]
  scatterDimsToOperandDims := [0]
  indexVectorDim := 1
  wf := by decide

/-! ## The host operations both programs share -/

/-- The species of both atoms of every pair: the atom indices, a negative one wrapped by the table's
    length, gathered out of the flattened species table. -/
def species12 (a0 : IVec S4096x64 32) (a2 : IVec S2x16777216 32) : IVec S2x16777216 32 :=
  Host.gather gatherAtoms (shapeCast S262144 a0 cast_atoms)
    (broadcastInDim S2x16777216x1 ![0, 1] bcast_pairs2_col
      (select (cmpi .slt a2 (broadcastInDim S2x16777216 ![] bcast_scalar_pairs2 (constantI S_ 32 0#32)))
        (addi a2 (broadcastInDim S2x16777216 ![] bcast_scalar_pairs2 (constantI S_ 32 262144#32))) a2))

/-- Row 0 of a two-row table, as a flat vector over the pairs. -/
def rowOf0 (v : IVec S2x16777216 32) : IVec S16777216 32 :=
  shapeCast S16777216 (extractStridedSlice S1x16777216 ![0, 0] v slice_row0) cast_row

/-- Row 1 of a two-row table, as a flat vector over the pairs. -/
def rowOf1 (v : IVec S2x16777216 32) : IVec S16777216 32 :=
  shapeCast S16777216 (extractStridedSlice S1x16777216 ![1, 0] v slice_row1) cast_row

/-- The floor of a signed quotient by 64: the truncated quotient, less one where the signs differ and the
    remainder is not zero. -/
def floorDiv64 (n : IVec S16777216 32) : IVec S16777216 32 :=
  select
    (andi
      (cmpi .ne (signi n) (broadcastInDim S16777216 ![] bcast_scalar_pairs (signi (id (constantI S_ 32 64#32)))))
      (cmpi .ne (Host.remsi n (broadcastInDim S16777216 ![] bcast_scalar_pairs (id (constantI S_ 32 64#32))))
        (broadcastInDim S16777216 ![] bcast_scalar_pairs (constantI S_ 32 0#32))))
    (subi (Host.divsi n (broadcastInDim S16777216 ![] bcast_scalar_pairs (id (constantI S_ 32 64#32))))
      (broadcastInDim S16777216 ![] bcast_scalar_pairs (constantI S_ 32 1#32)))
    (Host.divsi n (broadcastInDim S16777216 ![] bcast_scalar_pairs (id (constantI S_ 32 64#32))))

/-- The molecule of every pair: its first atom's index over 64, rounded down. -/
def molIdx (a2 : IVec S2x16777216 32) : IVec S16777216 32 := floorDiv64 (rowOf0 a2)

variable {F : FTy → Type} [FloatOps F]

/-- The result: each molecule's energy plus the sum of the values of the pairs that fall in it. -/
def energySum (a1 : FVec F S4096 .f32) (mol : IVec S16777216 32) (srb : FVec F S16777216 .f32) : FVec F S4096 .f32 :=
  addf a1 (Host.scatterAdd scatterMols (broadcastInDim S4096 ![] bcast_scalar_mols (constant S_ .f32 0x00000000#32))
    (broadcastInDim S16777216x1 ![0] bcast_pairs_col mol) srb)

/-! ## The reference's per-pair chain, as one function of the species rows and the float inputs -/

/-- numpy's indexing of an axis of length 4: a negative index counts from the end. -/
def wrapIdx (s : IVec S16777216 32) : IVec S16777216 32 :=
  select (cmpi .slt s (broadcastInDim S16777216 ![] bcast_scalar_pairs (constantI S_ 32 0#32)))
    (addi s (broadcastInDim S16777216 ![] bcast_scalar_pairs (constantI S_ 32 4#32))) s

/-- The two-coordinate table index of every pair: the two wrapped species side by side. -/
def tableIdx (s0 s1 : IVec S16777216 32) : IVec S16777216x2 32 :=
  concatenate S16777216x2 1
    [⟨S16777216x1, broadcastInDim S16777216x1 ![0] bcast_pairs_col (wrapIdx s0)⟩,
     ⟨S16777216x1, broadcastInDim S16777216x1 ![0] bcast_pairs_col (wrapIdx s1)⟩] cat_cols

/-- `where c a z` against a scalar `z`. -/
def whereScalar (c : IVec S16777216 1) (a : FVec F S16777216 .f32) (z : FVec F S_ .f32) : FVec F S16777216 .f32 :=
  select c a (broadcastInDim S16777216 ![] bcast_scalar_pairs (id z))

/-- A scalar literal spread over the pairs. -/
def lit (w : BitVec 32) : FVec F S16777216 .f32 :=
  broadcastInDim S16777216 ![] bcast_scalar_pairs (constant S_ .f32 w)

/-- The reference's value of every pair, from the species of its two atoms, the distances and the two tables:
    pre · exp (dfac · d), times the smooth cutoff exp (1 - 1 / (1 - (d / rc)²)) inside the cutoff radius. -/
def srbRef (s0 s1 : IVec S16777216 32) (a3 : FVec F S16777216 .f32) (a4 a5 : FVec F S4x4 .f32) : FVec F S16777216 .f32 :=
  mulf
    (mulf (Host.gather gatherTable a4 (tableIdx s0 s1))
      (Host.exp (mulf (Host.gather gatherTable a5 (tableIdx s0 s1)) (mulf a3 (lit 0x3FF1E28C#32)))))
    (whereScalar (cmpf .olt (mulf a3 (lit 0x3FF1E28C#32)) (lit 0x411D39A8#32))
      (Host.exp (subf (lit 0x3F800000#32) (Host.divf (lit 0x3F800000#32) (subf (lit 0x3F800000#32)
        (whereScalar
          (cmpf .olt (mulf (Host.divf (mulf a3 (lit 0x3FF1E28C#32)) (lit 0x411D39A8#32))
              (Host.divf (mulf a3 (lit 0x3FF1E28C#32)) (lit 0x411D39A8#32))) (lit 0x3F800000#32))
          (mulf (Host.divf (mulf a3 (lit 0x3FF1E28C#32)) (lit 0x411D39A8#32))
              (Host.divf (mulf a3 (lit 0x3FF1E28C#32)) (lit 0x411D39A8#32)))
          (constant S_ .f32 0x00000000#32))))))
      (constant S_ .f32 0x00000000#32))

/-! ## One pair, on the extended reals -/

/-- One pair's value from its two table entries and its distance: d = x · c, then
    (pre · exp (dfac · d)) · cutoff d. -/
def pairValue (pre dfac x : EReal) : EReal :=
  (pre * Ideal.exp (dfac * (x * Ideal.ofBits .f32 0x3FF1E28C#32)))
    * Scalar.select (FloatOps.cmpf (F := Ideal) .olt (x * Ideal.ofBits .f32 0x3FF1E28C#32) (Ideal.ofBits .f32 0x411D39A8#32))
        (Ideal.exp (Ideal.ofBits .f32 0x3F800000#32 - Ideal.div (Ideal.ofBits .f32 0x3F800000#32) (Ideal.ofBits .f32 0x3F800000#32
          - Scalar.select
              (FloatOps.cmpf (F := Ideal) .olt
                (Ideal.div (x * Ideal.ofBits .f32 0x3FF1E28C#32) (Ideal.ofBits .f32 0x411D39A8#32)
                  * Ideal.div (x * Ideal.ofBits .f32 0x3FF1E28C#32) (Ideal.ofBits .f32 0x411D39A8#32))
                (Ideal.ofBits .f32 0x3F800000#32))
              (Ideal.div (x * Ideal.ofBits .f32 0x3FF1E28C#32) (Ideal.ofBits .f32 0x411D39A8#32)
                * Ideal.div (x * Ideal.ofBits .f32 0x3FF1E28C#32) (Ideal.ofBits .f32 0x411D39A8#32))
              (Ideal.ofBits .f32 0x00000000#32))))
        (Ideal.ofBits .f32 0x00000000#32)

/-! ## The two table lookups -/

section Lookup
variable {α : Type}

/-- Is the pair of species exactly (i, j)? -/
def pairIs (s0 s1 i j : BitVec 32) : BitVec 1 := IntOp.andi (IntOp.cmpi .eq s0 i) (IntOp.cmpi .eq s1 j)

/-- The kernel's lookup: start from `z`; for i = 0..3, for j = 0..3 in order, where the species are (i, j) take
    entry (i, j). The last matching pair wins. -/
def lookupSel (E : S4x4.Idx → α) (z : α) (s0 s1 : BitVec 32) : α :=
  Scalar.select (pairIs s0 s1 3#32 3#32) (E (ValueIdx.ix2 3 3))
  (Scalar.select (pairIs s0 s1 3#32 2#32) (E (ValueIdx.ix2 3 2))
  (Scalar.select (pairIs s0 s1 3#32 1#32) (E (ValueIdx.ix2 3 1))
  (Scalar.select (pairIs s0 s1 3#32 0#32) (E (ValueIdx.ix2 3 0))
  (Scalar.select (pairIs s0 s1 2#32 3#32) (E (ValueIdx.ix2 2 3))
  (Scalar.select (pairIs s0 s1 2#32 2#32) (E (ValueIdx.ix2 2 2))
  (Scalar.select (pairIs s0 s1 2#32 1#32) (E (ValueIdx.ix2 2 1))
  (Scalar.select (pairIs s0 s1 2#32 0#32) (E (ValueIdx.ix2 2 0))
  (Scalar.select (pairIs s0 s1 1#32 3#32) (E (ValueIdx.ix2 1 3))
  (Scalar.select (pairIs s0 s1 1#32 2#32) (E (ValueIdx.ix2 1 2))
  (Scalar.select (pairIs s0 s1 1#32 1#32) (E (ValueIdx.ix2 1 1))
  (Scalar.select (pairIs s0 s1 1#32 0#32) (E (ValueIdx.ix2 1 0))
  (Scalar.select (pairIs s0 s1 0#32 3#32) (E (ValueIdx.ix2 0 3))
  (Scalar.select (pairIs s0 s1 0#32 2#32) (E (ValueIdx.ix2 0 2))
  (Scalar.select (pairIs s0 s1 0#32 1#32) (E (ValueIdx.ix2 0 1))
  (Scalar.select (pairIs s0 s1 0#32 0#32) (E (ValueIdx.ix2 0 0)) z)))))))))))))))

/-- A negative index wrapped by the axis length 4. -/
def wrap4 (s : BitVec 32) : BitVec 32 := Scalar.select (IntOp.cmpi .slt s 0#32) (IntOp.addi s 4#32) s

/-- A start index read as a signed integer and clamped into [0, 3]. -/
def clamp3 (s : BitVec 32) : Fin 4 := ⟨min s.toInt.toNat 3, by omega⟩

/-- The reference's lookup: both species wrapped, then clamped, then the entry there. -/
def lookupGather (E : S4x4.Idx → α) (s0 s1 : BitVec 32) : α :=
  E (ValueIdx.ix2 (clamp3 (wrap4 s0)) (clamp3 (wrap4 s1)))

theorem clamp_wrap_0 : clamp3 (wrap4 0#32) = 0 := by decide +kernel
theorem clamp_wrap_1 : clamp3 (wrap4 1#32) = 1 := by decide +kernel
theorem clamp_wrap_2 : clamp3 (wrap4 2#32) = 2 := by decide +kernel
theorem clamp_wrap_3 : clamp3 (wrap4 3#32) = 3 := by decide +kernel

/-- A species is one of the four elements. -/
def IsElem (s : BitVec 32) : Prop := s = 0#32 ∨ s = 1#32 ∨ s = 2#32 ∨ s = 3#32

/-- On species among the four elements the two lookups agree: exactly one (i, j) matches in the kernel's walk,
    and neither the wrap nor the clamp moves an index that is already in range. -/
theorem lookup_eq (E : S4x4.Idx → α) (z : α) (s0 s1 : BitVec 32) (h0 : IsElem s0) (h1 : IsElem s1) :
    lookupSel E z s0 s1 = lookupGather E s0 s1 := by
  rcases h0 with rfl | rfl | rfl | rfl <;> rcases h1 with rfl | rfl | rfl | rfl <;>
    (unfold lookupGather; simp only [clamp_wrap_0, clamp_wrap_1, clamp_wrap_2, clamp_wrap_3]; rfl)

/-- A comparison's result word is 1 exactly when the comparison holds. -/
theorem true_of_bit (b : Bool) (h : BitVec.ofBool b = 1#1) : b = true := by
  cases b
  · exact absurd h (by decide)
  · rfl

/-- A word that is at least 0 and below 4 as a signed integer is one of 0, 1, 2, 3. -/
theorem isElem_of_range (s : BitVec 32) (hge : IntOp.cmpi .sge s 0#32 = 1#1) (hlt : IntOp.cmpi .slt s 4#32 = 1#1) :
    IsElem s := by
  have h1 : (0#32).sle s = true := true_of_bit _ hge
  have h2 : s.slt 4#32 = true := true_of_bit _ hlt
  rw [BitVec.sle, decide_eq_true_eq] at h1
  rw [BitVec.slt, decide_eq_true_eq] at h2
  have e0 : (0#32).toInt = 0 := by decide
  have e4 : (4#32).toInt = 4 := by decide
  rw [e0] at h1; rw [e4] at h2
  have hc : s.toInt = 0 ∨ s.toInt = 1 ∨ s.toInt = 2 ∨ s.toInt = 3 := by omega
  rcases hc with h | h | h | h
  · exact Or.inl (BitVec.eq_of_toInt_eq (h.trans (by decide)))
  · exact Or.inr (Or.inl (BitVec.eq_of_toInt_eq (h.trans (by decide))))
  · exact Or.inr (Or.inr (Or.inl (BitVec.eq_of_toInt_eq (h.trans (by decide)))))
  · exact Or.inr (Or.inr (Or.inr (BitVec.eq_of_toInt_eq (h.trans (by decide)))))

end Lookup

end Cert.Srb

end
-- ==== Proof.RefValue.lean ====
/-
  What the reference's run leaves in its result and in its arguments.

  The fold of the operations at the result buffer is the shared sum `energySum` of the energies, the pairs'
  molecules and the pairs' values, the latter the reference's per-pair chain `srbRef` over the species rows
  of the pairs' two atoms: the operations in order ARE those definitions (a reshape is a shape cast, a call
  is its lines, a typed reference's transport at a literal buffer is the identity), so the equation is by
  computation.  No operation writes an argument buffer.
-/
import proofs.«412183_j14680198218405_1_alg».proof.Proof.RefRun
import proofs.«412183_j14680198218405_1_alg».proof.Proof.Spec

noncomputable section

namespace Cert.ReferenceIdeal.RefValue

open Idealize.ShloMosaic Idealize.ShloMosaic.TcCoe Idealize.SL.Sem
open Idealize.ShloMosaic.StableHlo
open Cert.ReferenceIdeal Cert.ReferenceIdeal.Facts₀ Cert.ReferenceIdeal.RefRun

variable {F : FTy → Type} [FloatOps F]

/-- The reference's result as a function of its six arguments. -/
def result (a0 : IVec S4096x64 32) (a1 : FVec F S4096 .f32) (a2 : IVec S2x16777216 32) (a3 : FVec F S16777216 .f32)
    (a4 a5 : FVec F S4x4 .f32) : FVec F S4096 .f32 :=
  Cert.Srb.energySum a1 (Cert.Srb.molIdx a2)
    (Cert.Srb.srbRef (Cert.Srb.rowOf0 (Cert.Srb.species12 a0 a2)) (Cert.Srb.rowOf1 (Cert.Srb.species12 a0 a2)) a3 a4 a5)

attribute [local irreducible] Host.gather Host.scatterAdd concatenate in
set_option maxRecDepth 16384 in
set_option maxHeartbeats 8000000 in
/-- The fold at the result buffer is `result` of the launch contents of the arguments. -/
theorem out_eq (V : Valuation τ sig (Elt F)) :
    after ops V (main_v72 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 16384 in
set_option maxHeartbeats 8000000 in
/-- No operation writes an argument buffer. -/
theorem args_kept (V : Valuation τ sig (Elt F)) (b : Ref sig .tc)
    (hb : b = main_arg0 ∨ b = main_arg1 ∨ b = main_arg2 ∨ b = main_arg3 ∨ b = main_arg4 ∨ b = main_arg5) :
    after ops V (b : DevRef τ sig) = V (b : DevRef τ sig) := by
  rcases hb with rfl | rfl | rfl | rfl | rfl | rfl <;>
    exact after_of_forall_not_mem (b := Proc.devRef .tc _) _ _ (List.forall_iff_forall_mem.mp (by
      simp only [ops, List.Forall, nullary_writes, unary_writes, binary_writes, ternary_writes, reshape_writes, Finset.mem_singleton]
      repeat' apply And.intro
      all_goals exact devRef_ne_of_ne (by decide)))

end Cert.ReferenceIdeal.RefValue

end
-- ==== Proof.KerValue.lean ====
/-
  What the kernel leaves in its output array.

  At one grid point the body loads a 512 × 1024 block of each species row and of the distances and the two whole
  4 × 4 tables, and stores one 512 × 1024 block.  Every operation of the body is pointwise, so the stored block at a
  position is one pair's value `pairValue` of that position's distance and of the two table entries the kernel's
  sixteen-step select walk picks for that position's species (`lookupSel`).  Block t of each streamed operand and
  of the output is rows 512 t … 512 t + 511 of its array, the tables' block is the whole table at every point, and
  the 32 blocks cover the output: so the output array is that function of the arrays, index by index.
-/
import proofs.«412183_j14680198218405_1_alg».proof.Proof.Gen.KernelIdeal.Frame
import proofs.«412183_j14680198218405_1_alg».proof.Proof.Spec
import Idealize.ShloMosaic.Lib.Pipeline.Value

set_option maxRecDepth 16384

noncomputable section

namespace Cert.KernelIdeal.KerValue

open Idealize.ShloMosaic Idealize.ShloMosaic.TcCoe Idealize.SL.Sem
open Cert.KernelIdeal Cert.KernelIdeal.Gen Cert.KernelIdeal.Facts₀
open Cert.Srb (pairValue lookupSel)

theorem hz : (![0, 0] : Fin 2 → Nat) = fun _ => 0 := funext fun a => by fin_cases a <;> rfl

/-- The float zero the walk starts from. -/
abbrev zero : EReal := Ideal.ofBits .f32 0x00000000#32

/-- A 1 × 1 load of a table at offset (i, j), read at its one position, is the table's entry (i, j). -/
theorem table_entry (X : Vec Ideal S4x4 .f32) (i j : Nat)
    (inb : ∀ a, (![i, j] : Fin 2 → Nat) a + S1x1.size a ≤ S4x4.size a)
    (hp : ∀ a, (![0, 0] : Fin 2 → Nat) a < S1x1.size a) :
    extractAt (s := S1x1) (α := Ideal FTy.f32) ![0, 0] (View.ld X (Rect.unit (s := S4x4) ![i, j] S1x1.size inb)) hp
      = X (ValueIdx.ix2 ⟨i, by have h : i + 1 ≤ 4 := inb 0; omega⟩ ⟨j, by have h : j + 1 ≤ 4 := inb 1; omega⟩) := by
  unfold extractAt
  refine congrArg X (funext fun a => Fin.ext ?_)
  match a with
  | ⟨0, _⟩ => show i + 1 * 0 = i; omega
  | ⟨1, _⟩ => show j + 1 * 0 = j; omega

set_option maxHeartbeats 4000000 in
/-- THE BODY AT A POSITION: what the one store leaves at position y is one pair's value of the loaded blocks'
    entries at y and of the loaded tables. -/
theorem body_apply (x0 x1 : Vec Ideal S512x1024 .i32) (x2 : Vec Ideal S512x1024 .f32) (x3 x4 : Vec Ideal S4x4 .f32)
    (y : S512x1024.Idx) :
    out0_5 (F := Ideal) x0 x1 x2 x3 x4 y
      = pairValue (lookupSel x3 zero (x0 y) (x1 y)) (lookupSel x4 zero (x0 y) (x1 y)) (x2 y) := by
  unfold out0_5
  rw [View.canon_unit_zero hz]
  simp only [View.ld_unit_zero (S := S512x1024) hz]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, shapeCast_self, table_entry]
  rfl

/-! ## From blocks to the array -/

variable (m : (ℓ : Loc nD τ sig) → Buf (Elt Ideal) ℓ)

/-- The output array as one function of the arrays the region finds, index by index: the pair at (r, c) gets its own
    distance and the two table entries the walk picks for its own two species. -/
def G (A0 A1 : S16384x1024.Idx → BitVec 32) (A2 : S16384x1024.Idx → EReal) (E D : S4x4.Idx → EReal) :
    S16384x1024.Idx → EReal :=
  fun i => pairValue (lookupSel E zero (A0 i) (A1 i)) (lookupSel D zero (A0 i) (A1 i)) (A2 i)

/-- The printed index maps over the grid: the three streamed operands move with the output, block (t, 0) at point t;
    the two tables stay at block (0, 0). -/
theorem idx_facts : ∀ t : Fin cfg0.N,
    win0_0.index t (0 : Fin 2) = win0_5.index t (0 : Fin 2) ∧ win0_0.index t (1 : Fin 2) = win0_5.index t (1 : Fin 2)
    ∧ win0_1.index t (0 : Fin 2) = win0_5.index t (0 : Fin 2) ∧ win0_1.index t (1 : Fin 2) = win0_5.index t (1 : Fin 2)
    ∧ win0_2.index t (0 : Fin 2) = win0_5.index t (0 : Fin 2) ∧ win0_2.index t (1 : Fin 2) = win0_5.index t (1 : Fin 2)
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 31 ∧ win0_5.index t (1 : Fin 2) = 0 :=
  (by decide +kernel : ∀ t : Fin grid0.N, _)

/-- Every row block of the output is some point's. -/
theorem idx_onto : ∀ q : Fin 32, ∃ t : Fin cfg0.N, win0_5.index t = ![q.val, 0] :=
  (by decide +kernel : ∀ q : Fin 32, ∃ t : Fin grid0.N, win0_5.index t = ![q.val, 0])

/-- WHAT POINT t WRITES BACK is block t of `G` of the arrays as the region finds them. -/
theorem flushed_eq (c : Dev nD) (t : Fin cfg0.N) :
    (dats m 0 c).flushed 5 t = ((cfg0.win 5).blk t).view.read (Elt Ideal)
      (G (V m c main_v15) (V m c main_v16) (V m c main_v17) (V m c main_arg4) (V m c main_arg5)) := by
  show (cfg0.win 5).cut (grid0.coords t) ((dats m 0 c).after 5 t) = _
  rw [after0_5]
  obtain ⟨a0, a1, b0, b1, c0, c1, d0, d1, e0, e1, -, -⟩ := idx_facts t
  funext j
  refine (body_apply (iblk m c 0 t) (iblk m c 1 t) (iblk m c 2 t) (iblk m c 3 t) (iblk m c 4 t) j).trans ?_
  have h0 : iblk m c 0 t j = V m c main_v15 (((cfg0.win 5).blk t).view.emb j) := by
    show V m c main_v15 (((cfg0.win 0).blk t).view.emb j) = _
    refine congrArg (V m c main_v15) ?_
    funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 1024 + 1 * (j 1).val = win0_5.index t (1 : Fin 2) * 1024 + 1 * (j 1).val; omega
  have h1 : iblk m c 1 t j = V m c main_v16 (((cfg0.win 5).blk t).view.emb j) := by
    show V m c main_v16 (((cfg0.win 1).blk t).view.emb j) = _
    refine congrArg (V m c main_v16) ?_
    funext a; apply Fin.ext
    match a with
    | ⟨0, _⟩ => show win0_1.index t (0 : Fin 2) * 512 + 1 * (j 0).val = win0_5.index t (0 : Fin 2) * 512 + 1 * (j 0).val; omega
    | ⟨1, _⟩ => show win0_1.index t (1 : Fin 2) * 1024 + 1 * (j 1).val = win0_5.index t (1 : Fin 2) * 1024 + 1 * (j 1).val; omega
  have h2 : iblk m c 2 t j = V m c main_v17 (((cfg0.win 5).blk t).view.emb j) := by
    show V m c main_v17 (((cfg0.win 2).blk t).view.emb j) = _
    refine congrArg (V m c main_v17) ?_
    funext a; apply Fin.ext
    match a with
    | ⟨0, _⟩ => show win0_2.index t (0 : Fin 2) * 512 + 1 * (j 0).val = win0_5.index t (0 : Fin 2) * 512 + 1 * (j 0).val; omega
    | ⟨1, _⟩ => show win0_2.index t (1 : Fin 2) * 1024 + 1 * (j 1).val = win0_5.index t (1 : Fin 2) * 1024 + 1 * (j 1).val; omega
  have h3 : iblk m c 3 t = V m c main_arg4 := by
    funext k
    show V m c main_arg4 (((cfg0.win 3).blk t).view.emb k) = V m c main_arg4 k
    refine congrArg (V m c main_arg4) ?_
    funext a; apply Fin.ext
    match a with
    | ⟨0, _⟩ => show win0_3.index t (0 : Fin 2) * 4 + 1 * (k 0).val = (k 0).val; omega
    | ⟨1, _⟩ => show win0_3.index t (1 : Fin 2) * 4 + 1 * (k 1).val = (k 1).val; omega
  have h4 : iblk m c 4 t = V m c main_arg5 := by
    funext k
    show V m c main_arg5 (((cfg0.win 4).blk t).view.emb k) = V m c main_arg5 k
    refine congrArg (V m c main_arg5) ?_
    funext a; apply Fin.ext
    match a with
    | ⟨0, _⟩ => show win0_4.index t (0 : Fin 2) * 4 + 1 * (k 0).val = (k 0).val; omega
    | ⟨1, _⟩ => show win0_4.index t (1 : Fin 2) * 4 + 1 * (k 1).val = (k 1).val; omega
  rw [h0, h1, h2, h3, h4]
  rfl

/-- An index of the array is in point t's block iff each coordinate is in the block's range on its axis. -/
theorem mem_blk (t : Fin cfg0.N) (i : S16384x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v18).slice (win0_5.rect t)).set ↔ _
  rw [View.set_slice_whole, Rect.mem_set_unit]
  exact Iff.rfl

/-- THE COVER: the row r of the output lies in the block of the point whose row block is r / 512. -/
theorem cover (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- THE OUTPUT ARRAY after the run is `G` of the arrays the region found. -/
theorem final (c : Dev nD) :
    (dats m 0 c).arrAt 5 cfg0.N
      = G (V m c main_v15) (V m c main_v16) (V m c main_v17) (V m c main_arg4) (V m c main_arg5) :=
  (dats m 0 c).arrAt_eq_of_cover 5 _ (fun t _ => flushed_eq m c t) cover

end Cert.KernelIdeal.KerValue

end
-- ==== Proof.Bridge.lean ====
/-
  The two programs' per-pair arrays are one array, on species among the four elements.

  Three facts, none of which needs a program:
  * a gather only ever reads entries of its operand, and a slice or a shape cast only moves entries, so if every
    species is one of the four elements then so is every entry of the species rows of the pairs' atoms;
  * the reference's chain read at pair p is one pair's value `pairValue` of p's distance and of the table entries at
    p's two species wrapped and clamped (`lookupGather`): the gather's operand index is, coordinate by coordinate,
    the start index read signed and clamped into [0, 3], and the start index of pair p is the two wrapped species
    side by side;
  * the kernel's array over the 16384 × 1024 tiling, flattened back, is the per-pair function of the flat rows
    (tiling and flattening are inverse shape casts), with the walk's lookup `lookupSel`.
  The lookups agree on the four elements (`lookup_eq`), hence the arrays do.
-/
import proofs.«412183_j14680198218405_1_alg».proof.Proof.Spec
import Idealize.ShloMosaic.Lib.Pipeline.Value

noncomputable section

namespace Cert.Srb

open Idealize.ShloMosaic Idealize.ShloMosaic.ValueIdx

/-! ## Species stay among the four elements -/

theorem species12_elem (a0 : IVec S4096x64 32) (a2 : IVec S2x16777216 32) (h : ∀ i, IsElem (a0 i)) (q : S2x16777216.Idx) :
    IsElem (species12 a0 a2 q) := by
  unfold species12 Host.gather shapeCast
  exact h _

theorem rowOf0_elem (v : IVec S2x16777216 32) (h : ∀ q, IsElem (v q)) (p : S16777216.Idx) : IsElem (rowOf0 v p) := by
  unfold rowOf0 shapeCast extractStridedSlice
  exact h _

theorem rowOf1_elem (v : IVec S2x16777216 32) (h : ∀ q, IsElem (v q)) (p : S16777216.Idx) : IsElem (rowOf1 v p) := by
  unfold rowOf1 shapeCast extractStridedSlice
  exact h _

/-! ## The table gather read at one pair -/

/-- Position (p, k) of the pairs' two-column index table. -/
abbrev at2 (p : S16777216.Idx) (k : Fin 2) : S16777216x2.Idx :=
  fun a => match a with | ⟨0, _⟩ => ⟨(p 0).val, (p 0).isLt⟩ | ⟨1, _⟩ => ⟨k.val, k.isLt⟩

/-- A coordinate of a 4 × 4 table is 0 or 1. -/
theorem fin2_cases : ∀ a : Fin 2, a = 0 ∨ a = 1 := by decide

set_option maxRecDepth 4096 in
/-- THE TABLE GATHER AT PAIR p: the table at the two start indices of p, each read signed and clamped into [0, 3]. -/
theorem gatherTable_apply {α : Type} (E : S4x4.Idx → α) (idx : IVec S16777216x2 32) (p : S16777216.Idx) :
    Host.gather gatherTable E idx p = E (ix2 (clamp3 (idx (at2 p 0))) (clamp3 (idx (at2 p 1)))) := by
  unfold Host.gather
  congr 1
  funext a
  refine Fin.ext ?_
  show gatherTable.start p idx a + gatherTable.batchCoord p a + gatherTable.offCoord p a = _
  rw [GatherDims.batchCoord_eq_zero _ _ _ List.not_mem_nil]
  rcases fin2_cases a with rfl | rfl
  · rw [GatherDims.offCoord_eq_zero _ _ _ (fun h => ((GatherDims.mem_sKept _ _).mp h).1 (by decide))]
    simp only [Nat.add_zero]
    unfold GatherDims.start
    rw [dif_pos (show (0 : Fin 2) ∈ gatherTable.startIndexMap from by decide)]
    have hsi : gatherTable.siIdx p ⟨List.idxOf (0 : Fin 2) gatherTable.startIndexMap,
        List.idxOf_lt_length_iff.2 (by decide)⟩ = at2 p 0 := by
      funext b; refine Fin.ext ?_
      rcases fin2_cases b with rfl | rfl
      · rfl
      · rfl
    rw [hsi]
    rfl
  · rw [GatherDims.offCoord_eq_zero _ _ _ (fun h => ((GatherDims.mem_sKept _ _).mp h).1 (by decide))]
    simp only [Nat.add_zero]
    unfold GatherDims.start
    rw [dif_pos (show (1 : Fin 2) ∈ gatherTable.startIndexMap from by decide)]
    have hsi : gatherTable.siIdx p ⟨List.idxOf (1 : Fin 2) gatherTable.startIndexMap,
        List.idxOf_lt_length_iff.2 (by decide)⟩ = at2 p 1 := by
      funext b; refine Fin.ext ?_
      rcases fin2_cases b with rfl | rfl
      · rfl
      · rfl
    rw [hsi]
    rfl

/-- The wrapped index vector read at a pair. -/
theorem wrapIdx_apply (s : IVec S16777216 32) (p : S16777216.Idx) : wrapIdx s p = wrap4 (s p) := rfl

/-- Pair p's position in a one-column table over the pairs. -/
abbrev at1 (p : S16777216.Idx) : S16777216x1.Idx :=
  fun a => match a with | ⟨0, _⟩ => ⟨(p 0).val, (p 0).isLt⟩ | ⟨1, _⟩ => ⟨0, Nat.one_pos⟩

/-- A column made of a vector over the pairs holds the vector's entry of pair p in row p. -/
theorem col_apply (v : IVec S16777216 32) (p : S16777216.Idx) :
    broadcastInDim S16777216x1 ![0] bcast_pairs_col v (at1 p) = v p :=
  broadcastInDim_apply ![0] bcast_pairs_col v (at1 p) p (fun a => by
    rcases (show a = 0 from Subsingleton.elim _ _) with rfl
    rfl)

/-- Column 0 of pair p's start index is its first species, wrapped. -/
theorem tableIdx_apply_0 (s0 s1 : IVec S16777216 32) (p : S16777216.Idx) : tableIdx s0 s1 (at2 p 0) = wrap4 (s0 p) := by
  unfold tableIdx
  rw [concatenate_pair_apply_left (t := S16777216x2) (s₁ := S16777216x1) (s₂ := S16777216x1) (1 : Fin 2)
    (broadcastInDim S16777216x1 ![0] bcast_pairs_col (wrapIdx s0)) (broadcastInDim S16777216x1 ![0] bcast_pairs_col (wrapIdx s1))
    cat_cols (at2 p 0) rfl (at1 p)
    (fun b => by rcases fin2_cases b with rfl | rfl <;> rfl)]
  rw [col_apply]
  rfl

/-- Column 1 of pair p's start index is its second species, wrapped. -/
theorem tableIdx_apply_1 (s0 s1 : IVec S16777216 32) (p : S16777216.Idx) : tableIdx s0 s1 (at2 p 1) = wrap4 (s1 p) := by
  unfold tableIdx
  rw [concatenate_pair_apply_right (t := S16777216x2) (s₁ := S16777216x1) (s₂ := S16777216x1) (1 : Fin 2)
    (broadcastInDim S16777216x1 ![0] bcast_pairs_col (wrapIdx s0)) (broadcastInDim S16777216x1 ![0] bcast_pairs_col (wrapIdx s1))
    cat_cols (at2 p 1) rfl rfl (at1 p)
    (fun b hb => by
      rcases fin2_cases b with rfl | rfl
      · rfl
      · exact absurd rfl hb)
    rfl]
  rw [col_apply]
  rfl

/-- THE REFERENCE AT PAIR p: one pair's value of p's distance and of the two tables' entries at p's species, wrapped
    and clamped. -/
theorem srbRef_apply (s0 s1 : IVec S16777216 32) (a3 : FVec Ideal S16777216 .f32) (a4 a5 : FVec Ideal S4x4 .f32)
    (p : S16777216.Idx) :
    srbRef s0 s1 a3 a4 a5 p
      = pairValue (lookupGather a4 (s0 p) (s1 p)) (lookupGather a5 (s0 p) (s1 p)) (a3 p) := by
  have g4 : Host.gather gatherTable a4 (tableIdx s0 s1) p = lookupGather a4 (s0 p) (s1 p) := by
    rw [gatherTable_apply, tableIdx_apply_0, tableIdx_apply_1]; rfl
  have g5 : Host.gather gatherTable a5 (tableIdx s0 s1) p = lookupGather a5 (s0 p) (s1 p) := by
    rw [gatherTable_apply, tableIdx_apply_0, tableIdx_apply_1]; rfl
  show (Host.gather gatherTable a4 (tableIdx s0 s1) p * Ideal.exp (Host.gather gatherTable a5 (tableIdx s0 s1) p * _)) * _ = _
  rw [g4, g5]
  rfl

/-! ## The kernel's tiled array, flattened, is the reference's -/

/-- The kernel's output over the tiling: at tile position i, one pair's value of the tiled rows' entries at i, the
    tables looked up by the walk. -/
def tiled (A0 A1 : S16384x1024.Idx → BitVec 32) (A2 : S16384x1024.Idx → EReal) (E D : S4x4.Idx → EReal) :
    S16384x1024.Idx → EReal :=
  fun i => pairValue (lookupSel E (Ideal.ofBits .f32 0x00000000#32) (A0 i) (A1 i))
    (lookupSel D (Ideal.ofBits .f32 0x00000000#32) (A0 i) (A1 i)) (A2 i)

/-- THE BRIDGE: tile the three flat rows, compute the kernel's array, flatten it back: on species among the four
    elements that is the reference's per-pair array. -/
theorem tiled_flat_eq (s0 s1 : IVec S16777216 32) (a3 : FVec Ideal S16777216 .f32) (a4 a5 : FVec Ideal S4x4 .f32)
    (h0 : ∀ p, IsElem (s0 p)) (h1 : ∀ p, IsElem (s1 p)) :
    shapeCast S16777216
        (tiled (shapeCast S16384x1024 s0 cast_tile) (shapeCast S16384x1024 s1 cast_tile) (shapeCast S16384x1024 a3 cast_tile) a4 a5)
        cast_untile
      = srbRef s0 s1 a3 a4 a5 := by
  funext p
  have e0 : shapeCast S16777216 (shapeCast S16384x1024 s0 cast_tile) cast_untile p = s0 p :=
    congrFun (shapeCast_shapeCast s0 cast_tile cast_untile) p
  have e1 : shapeCast S16777216 (shapeCast S16384x1024 s1 cast_tile) cast_untile p = s1 p :=
    congrFun (shapeCast_shapeCast s1 cast_tile cast_untile) p
  have e3 : shapeCast S16777216 (shapeCast S16384x1024 a3 cast_tile) cast_untile p = a3 p :=
    congrFun (shapeCast_shapeCast a3 cast_tile cast_untile) p
  rw [srbRef_apply, ← lookup_eq a4 (Ideal.ofBits .f32 0x00000000#32) _ _ (h0 p) (h1 p),
    ← lookup_eq a5 (Ideal.ofBits .f32 0x00000000#32) _ _ (h0 p) (h1 p), ← e0, ← e1, ← e3]
  rfl

end Cert.Srb

end
-- ==== Proof.KerHost.lean ====
/-
  The kernel's program around its region: what the region finds, and what the lines after it leave.

  Before the region the program gathers the species of every pair's two atoms, takes the two rows, computes every
  pair's molecule, and tiles the two species rows and the distances into 16384 × 1024 arrays: the three streamed
  operands are shape casts of the shared rows.  After the region it flattens the kernel's output array and adds
  every pair's value into its molecule's slot on top of the energies: the shared sum `energySum` over the shared
  molecule index.  Both are by computation on the operation lists.
-/
import proofs.«412183_j14680198218405_1_alg».proof.Proof.KerValue
import proofs.«412183_j14680198218405_1_alg».proof.Proof.Bridge
import Idealize.ShloMosaic.Lib.StableHlo.Run

set_option maxRecDepth 16384

noncomputable section

namespace Cert.KernelIdeal.KerHost

open Idealize.ShloMosaic Idealize.ShloMosaic.TcCoe Idealize.SL.Sem
open Idealize.ShloMosaic.StableHlo
open Cert.KernelIdeal Cert.KernelIdeal.Gen Cert.KernelIdeal.Facts₀

variable (m : (ℓ : Loc nD τ sig) → Buf (Elt Ideal) ℓ)

/-- The species rows of the pairs' two atoms, from the launch contents. -/
abbrev sp (c : Dev nD) : IVec S2x16777216 32 :=
  Cert.Srb.species12 (m ((c : Thread nD τ).loc main_arg0)) (m ((c : Thread nD τ).loc main_arg2))

set_option maxHeartbeats 4000000 in
/-- Streamed operand 0 is the first atoms' species, tiled. -/
theorem V_v15 (c : Dev nD) :
    (V m c main_v15 : S16384x1024.Idx → BitVec 32) = shapeCast S16384x1024 (Cert.Srb.rowOf0 (sp m c)) Cert.Srb.cast_tile := by
  dsimp only [V, V0]
  simp only [hostOps0, hostOps0_1, hostOps0_2, List.flatten_cons, List.flatten_nil, List.append_nil, List.cons_append, List.nil_append]
  after_results_simp
  rfl

set_option maxHeartbeats 4000000 in
/-- Streamed operand 1 is the second atoms' species, tiled. -/
theorem V_v16 (c : Dev nD) :
    (V m c main_v16 : S16384x1024.Idx → BitVec 32) = shapeCast S16384x1024 (Cert.Srb.rowOf1 (sp m c)) Cert.Srb.cast_tile := by
  dsimp only [V, V0]
  simp only [hostOps0, hostOps0_1, hostOps0_2, List.flatten_cons, List.flatten_nil, List.append_nil, List.cons_append, List.nil_append]
  after_results_simp
  rfl

set_option maxHeartbeats 4000000 in
/-- Streamed operand 2 is the distances, tiled. -/
theorem V_v17 (c : Dev nD) :
    (V m c main_v17 : S16384x1024.Idx → EReal) = shapeCast S16384x1024 (m ((c : Thread nD τ).loc main_arg3)) Cert.Srb.cast_tile := by
  dsimp only [V, V0]
  simp only [hostOps0, hostOps0_1, hostOps0_2, List.flatten_cons, List.flatten_nil, List.append_nil, List.cons_append, List.nil_append]
  after_results_simp
  rfl

set_option maxHeartbeats 8000000 in
/-- The pairs' molecules, as the region finds them. -/
theorem V_v14 (c : Dev nD) :
    (V m c main_v14 : S16777216.Idx → BitVec 32) = Cert.Srb.molIdx (m ((c : Thread nD τ).loc main_arg2)) := by
  dsimp only [V, V0]
  simp only [hostOps0, hostOps0_1, hostOps0_2, List.flatten_cons, List.flatten_nil, List.append_nil, List.cons_append, List.nil_append]
  after_results_simp
  rfl

/-- The kernel's output array, flattened, is the reference's per-pair array of the same inputs, when every species
    is one of the four elements. -/
theorem flat_final (c : Dev nD) (hel : ∀ i, Cert.Srb.IsElem (m ((c : Thread nD τ).loc main_arg0) i)) :
    shapeCast S16777216 ((dats m 0 c).arrAt 5 cfg0.N : S16384x1024.Idx → EReal) Cert.Srb.cast_untile
      = Cert.Srb.srbRef (F := Ideal) (Cert.Srb.rowOf0 (sp m c)) (Cert.Srb.rowOf1 (sp m c)) (m ((c : Thread nD τ).loc main_arg3))
          (m ((c : Thread nD τ).loc main_arg4)) (m ((c : Thread nD τ).loc main_arg5)) := by
  rw [KerValue.final m c, V_v15, V_v16, V_v17, V_main_arg4, V_main_arg5]
  exact Cert.Srb.tiled_flat_eq _ _ _ _ _
    (Cert.Srb.rowOf0_elem _ (Cert.Srb.species12_elem _ _ hel))
    (Cert.Srb.rowOf1_elem _ (Cert.Srb.species12_elem _ _ hel))

set_option maxHeartbeats 4000000 in
/-- THE RESULT: what the lines after the region leave in the result buffer. -/
theorem result_eq (c : Dev nD) (hel : ∀ i, Cert.Srb.IsElem (m ((c : Thread nD τ).loc main_arg0) i)) :
    (Pipeline.afterTail₀ cfgs (dats m) 0 (V0 m) [hostOps1] c main_v23 : S4096.Idx → EReal)
      = Cert.Srb.energySum (F := Ideal) (m ((c : Thread nD τ).loc main_arg1)) (Cert.Srb.molIdx (m ((c : Thread nD τ).loc main_arg2)))
          (Cert.Srb.srbRef (F := Ideal) (Cert.Srb.rowOf0 (sp m c)) (Cert.Srb.rowOf1 (sp m c)) (m ((c : Thread nD τ).loc main_arg3))
            (m ((c : Thread nD τ).loc main_arg4)) (m ((c : Thread nD τ).loc main_arg5))) := by
  unfold Pipeline.afterTail₀
  show StableHlo.after hostOps1 _ (Proc.devRef .tc main_v23) = _
  after_results
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by decide)).trans (V_main_arg1 m c)
  have h14 : Pipeline.withArrays (cfgs 0).spec c (V0 m c) (fun w => (dats m 0 c).arrAt w (cfgs 0).N) (Proc.devRef .tc main_v14)
      = Cert.Srb.molIdx (m ((c : Thread nD τ).loc main_arg2)) :=
    (Pipeline.withArrays_of_ne _ c (V0 m c) _ main_v14 (by decide)).trans (V_v14 m c)
  have h18 : Pipeline.withArrays (cfgs 0).spec c (V0 m c) (fun w => (dats m 0 c).arrAt w (cfgs 0).N) (Proc.devRef .tc main_v18)
      = (dats m 0 c).arrAt 5 cfg0.N :=
    Pipeline.withArrays_arr spec0 launch0.win.arr_inj c _ _ 5
  rw [h1, h14, h18, ← flat_final m c hel]
  rfl

end Cert.KernelIdeal.KerHost

end
-- ==== Proof.PreDecode.lean ====
/-
  What the precondition says of the species.

  The precondition is a conjunction of five all-reductions, the last of them over the mask
  (species ≥ 0) and (species < 4).  The conjunction being 1 makes that reduction 1, a reduction by `and` into a
  single result being 1 makes every entry of the mask 1, and an entry of the mask being 1 says that the species
  there is at least 0 and below 4 as a signed integer: one of the four elements.
-/
import proofs.«412183_j14680198218405_1_alg».proof.Pre_finite_inputs
import proofs.«412183_j14680198218405_1_alg».proof.Proof.Gen.Pre_finite_inputs
import proofs.«412183_j14680198218405_1_alg».proof.Proof.Spec
import Idealize.ShloMosaic.Lib.ReduceAll
import Idealize.ShloMosaic.Lib.Affine

noncomputable section

namespace Cert.Pre_finite_inputs.Decode

open Idealize.ShloMosaic Cert.Pre_finite_inputs

instance : Subsingleton S_.Idx := ⟨fun a b => funext fun d => d.elim0⟩

variable [Facts]

/-- Under the precondition every species is one of the four elements. -/
theorem species_elem (a0 : IVec S4096x64 32) (a1 : FVec Ideal S4096 .f32) (a2 : IVec S2x16777216 32)
    (a3 : FVec Ideal S16777216 .f32) (a4 a5 : FVec Ideal S4x4 .f32)
    (h : fn (F := Ideal) a0 a1 a2 a3 a4 a5 = fun _ => 1#1) (i : S4096x64.Idx) : Cert.Srb.IsElem (a0 i) := by
  have h0 := congrFun h ValueIdx.ix0
  unfold fn fn_part1 at h0
  dsimp only at h0
  obtain ⟨-, hr⟩ := IntOp.andi_eq_one.1 h0
  have hi := Host.reduce_andi_all _ _ _ _ _ hr i
  obtain ⟨hge, hlt⟩ := IntOp.andi_eq_one.1 hi
  exact Cert.Srb.isElem_of_range _ hge hlt

end Cert.Pre_finite_inputs.Decode

end
-- ==== Proof.lean ====
/-
  The certificate: the energy of every molecule plus the short-range repulsion of the pairs that fall in it, computed
  by a Pallas kernel that streams the pairs in 512 × 1024 blocks, against the plain array program.

  Both programs gather the species of each pair's two atoms, give each pair the value
  (pre · exp (dfac · d)) · cutoff d of its distance d and of two entries pre, dfac of 4 × 4 tables chosen by the two
  species, and add the pairs' values into their molecules on top of the energies.  They differ in one place: the
  kernel picks the table entries by sixteen compare-and-select steps from zero, the reference by a gather whose
  index is wrapped and clamped.  On species among the four elements {0, 1, 2, 3} — which the precondition states,
  as the range of an index into an axis of length 4 — the two lookups agree, and with them everything after.

  * the two kernel programs' frames are the generated ones;
  * the reference's frame and value come from its run as one straight line of host operations (RefRun, RefValue);
  * the kernel's value is its output array read off the generated frame run (KerValue), between the host lines
    before and after the region (KerHost);
  * the precondition gives the species' range (PreDecode), the bridge joins the two per-pair arrays (Bridge).
-/
import proofs.«412183_j14680198218405_1_alg».proof.Defs
import proofs.«412183_j14680198218405_1_alg».proof.Proof.Gen.Kernel
import proofs.«412183_j14680198218405_1_alg».proof.Proof.Gen.Kernel.Skeleton
import proofs.«412183_j14680198218405_1_alg».proof.Proof.Gen.Kernel.Launch
import proofs.«412183_j14680198218405_1_alg».proof.Proof.Gen.Kernel.Points
import proofs.«412183_j14680198218405_1_alg».proof.Proof.Gen.Kernel.Frame
import proofs.«412183_j14680198218405_1_alg».proof.Proof.Gen.KernelIdeal
import proofs.«412183_j14680198218405_1_alg».proof.Proof.Gen.KernelIdeal.Skeleton
import proofs.«412183_j14680198218405_1_alg».proof.Proof.Gen.KernelIdeal.Launch
import proofs.«412183_j14680198218405_1_alg».proof.Proof.Gen.KernelIdeal.Points
import proofs.«412183_j14680198218405_1_alg».proof.Proof.Gen.KernelIdeal.Frame
import proofs.«412183_j14680198218405_1_alg».proof.Proof.Gen.ReferenceIdeal
import proofs.«412183_j14680198218405_1_alg».proof.Proof.Gen.Pre_finite_inputs
import proofs.«412183_j14680198218405_1_alg».proof.Proof.RefValue
import proofs.«412183_j14680198218405_1_alg».proof.Proof.KerHost
import proofs.«412183_j14680198218405_1_alg».proof.Proof.PreDecode
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run as a straight line, read at the argument buffers, which no
    operation writes. -/
theorem frame_ri : Cert.frame_ReferenceIdeal := fun m ρ _ =>
  (θ_run Cert.ReferenceIdeal.defs _ _).mono (fun r h c =>
    ⟨(h c _).trans (Cert.ReferenceIdeal.RefValue.args_kept _ _ (Or.inl rfl)),
     (h c _).trans (Cert.ReferenceIdeal.RefValue.args_kept _ _ (Or.inr (Or.inl rfl))),
     (h c _).trans (Cert.ReferenceIdeal.RefValue.args_kept _ _ (Or.inr (Or.inr (Or.inl rfl)))),
     (h c _).trans (Cert.ReferenceIdeal.RefValue.args_kept _ _ (Or.inr (Or.inr (Or.inr (Or.inl rfl))))),
     (h c _).trans (Cert.ReferenceIdeal.RefValue.args_kept _ _ (Or.inr (Or.inr (Or.inr (Or.inr (Or.inl rfl)))))),
     (h c _).trans (Cert.ReferenceIdeal.RefValue.args_kept _ _ (Or.inr (Or.inr (Or.inr (Or.inr (Or.inr rfl))))))⟩)
    (Cert.ReferenceIdeal.RefRun.run_main (F := Ideal) m ρ)

/-- The result both programs end with, as a function of the kernel program's launch contents. -/
abbrev res (m : (ℓ : Loc Cert.KernelIdeal.nD Cert.KernelIdeal.τ Cert.KernelIdeal.sig) → Buf (Elt Ideal) ℓ)
    (c : Dev Cert.KernelIdeal.nD) : FVec Ideal Cert.ReferenceIdeal.S4096 .f32 :=
  Cert.ReferenceIdeal.RefValue.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

open Cert.KernelIdeal Cert.KernelIdeal.Gen in
/-- The idealized kernel program's run: the result buffer ends at `res`, the arguments as launched. The frame run
    gives every other unscoped buffer as the lines after the region leave it; at the result buffer that is the shared
    sum over the kernel's flattened output array, which is the reference's per-pair array when the species are among
    the four elements. -/
theorem run_k (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v23) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have hel : ∀ i, Cert.Srb.IsElem (m ((c.tc : Thread nD τ).loc main_arg0) i) :=
      fun i => Cert.Pre_finite_inputs.Decode.species_elem _ _ _ _ _ _ (hpre c) i
    have k0 := ((h c).2 main_arg0 (Pipeline.mem_restRefs_of main_arg0 (by decide) (by decide))).trans (W_main_arg0 m (dats m) c)
    ⟨k0,
     ((h c).2 main_v23 (Pipeline.mem_restRefs_of main_v23 (by decide) (by decide))).trans
        (Cert.KernelIdeal.KerHost.result_eq m c hel),
     k0,
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).1 3).trans (((dats m 0 c).arrAt_in 3 rfl _).trans ((A_eq m c 3).trans (V_main_arg4 m c))),
     ((h c).1 4).trans (((dats m 0 c).arrAt_in 4 rfl _).trans ((A_eq m c 4).trans (V_main_arg5 m c)))⟩)
    (run_main m ρ)

/-- From memories agreeing on the arguments both idealized programs end with the same result: the kernel program at
    `res` of its launch contents (`run_k`), the reference at its own result function of its launch contents, which are
    the same arrays. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0), res m, run_k m ρ hpre, ?_⟩
  refine (θ_run Cert.ReferenceIdeal.defs _ _).mono (fun r h c => ?_) (Cert.ReferenceIdeal.RefRun.run_main (F := Ideal) m' ρ')
  obtain ⟨e0, e1, e2, e3, e4, e5⟩ := hagree c
  have k0 := (h c _).trans (Cert.ReferenceIdeal.RefValue.args_kept (StableHlo.launchContents m' c) Cert.ReferenceIdeal.main_arg0 (Or.inl rfl))
  refine ⟨k0.trans e0, ?_, k0,
    (h c _).trans (Cert.ReferenceIdeal.RefValue.args_kept _ _ (Or.inr (Or.inl rfl))),
    (h c _).trans (Cert.ReferenceIdeal.RefValue.args_kept _ _ (Or.inr (Or.inr (Or.inl rfl)))),
    (h c _).trans (Cert.ReferenceIdeal.RefValue.args_kept _ _ (Or.inr (Or.inr (Or.inr (Or.inl rfl))))),
    (h c _).trans (Cert.ReferenceIdeal.RefValue.args_kept _ _ (Or.inr (Or.inr (Or.inr (Or.inr (Or.inl rfl)))))),
    (h c _).trans (Cert.ReferenceIdeal.RefValue.args_kept _ _ (Or.inr (Or.inr (Or.inr (Or.inr (Or.inr rfl))))))⟩
  refine (h c _).trans ((Cert.ReferenceIdeal.RefValue.out_eq _).trans ?_)
  unfold res
  rw [← e0, ← e1, ← e2, ← e3, ← e4, ← e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
